-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KHost.lean ====
/-
  The host side of the kernel's program, read as values.

  Between the launch and the first region the host code computes, from the edge list `e` (row 0 the source node of
  each edge, row 1 its destination), the reciprocal of each node's in-degree clipped below at one, and the
  neighbourhood means of the node features: the features' rows gathered at the (wrapped) source indices, summed into
  their destination rows, each row scaled by its node's reciprocal count.  Between the two regions it computes the
  same means of the hidden features the first region left.  `meanK Z e` is that operator; the lemmas below say which
  buffer holds what when each region is entered.
-/
import proofs.«150900_j13305808683303_1_alg».proof.Proof.Gen.KernelIdeal.Frame
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]

/-- Each edge's destination node: row 1 of the edge list. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each edge's source node as given: row 0 of the edge list. -/
def srcRaw (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The source index wrapped: a negative index counts from the end of the node axis. -/
def srcOf (e : (⟨S2x1600000, .i32⟩ : BufTy).Contents (Elt F)) : (⟨S1600000, .i32⟩ : BufTy).Contents (Elt F) :=
  select (cmpi .slt (srcRaw e) (broadcastInDim S1600000 ![] bcast_S_S1600000 (constantI S_ 32 0#32)))
    (addi (srcRaw e) (broadcastInDim S1600000 ![] bcast_S_S1600000 (constantI S_ 32 100000#32))) (srcRaw e)

/-- Each node's in-degree: ones summed into the destination rows. -/
def cntK (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dstOf e))
    (broadcastInDim S1600000 ![] bcast_S_S1600000 (constant S_ .f32 0x3F800000#32))

/-- The reciprocal of each node's in-degree clipped below at one, as a column. -/
def invCnt (e : (⟨S2x1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (cntK e) (broadcastInDim S100000 ![] bcast_S_S100000 (constant S_ .f32 0x3F800000#32))))

/-- The rows of `Z` at the edges' sources summed into the edges' destination rows. -/
def sumK (Z : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstOf e))
    (Host.gather gather_S100000x128_S1600000x1_S1600000x128_1_0_n_n_0_1_1128 Z
      (broadcastInDim S1600000x1 ![0] bcast_S1600000_S1600000x1_0 (srcOf e)))

/-- The neighbourhood means of a feature matrix `Z` along the edge list `e`, the kernel's way: the summed rows
    times the reciprocal count. -/
def meanK (Z : (⟨S100000x128, .f32⟩ : BufTy).Contents (Elt F)) (e : (⟨S2x1600000, .i32⟩ : BufTy).Contents (Elt F)) :
    (⟨S100000x128, .f32⟩ : BufTy).Contents (Elt F) :=
  mulf (sumK Z e) (broadcastInDim S100000x128 ![0, 1] bcast_S100000x1_S100000x128_0_1 (invCnt e))

variable (m : (ℓ : Loc nD τ sig) → Buf (Elt F) ℓ) (ρ : Dev nD → PrngReg)

/-! ## When the first region is entered -/

theorem W1_v24 (c : Dev nD) :
    W1 m ρ c (Proc.devRef .tc main_v24) = meanK (m ((c : Thread nD τ).loc main_arg0)) (m ((c : Thread nD τ).loc main_arg1)) := by
  show StableHlo.after hostOps0 (W0 m ρ c) (Proc.devRef .tc main_v24) = _
  after_results_simp
  rfl

theorem W1_v1 (c : Dev nD) : W1 m ρ c (Proc.devRef .tc main_v1) = srcRaw (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl

theorem W1_v12 (c : Dev nD) : W1 m ρ c (Proc.devRef .tc main_v12) = invCnt (m ((c : Thread nD τ).loc main_arg1)) := by
  show StableHlo.after hostOps0 (W0 m ρ c) (Proc.devRef .tc main_v12) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W1_arg4 (c : Dev nD) : W1 m ρ c (Proc.devRef .tc main_arg4) = m ((c : Thread nD τ).loc main_arg4) := by
  show StableHlo.after hostOps0 (W0 m ρ c) (Proc.devRef .tc main_arg4) = _
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## When the second region is entered: the first region wrote only its result array, so every other buffer is as
    the first stretch of host code left it -/

/-- The hidden features: what the first region's write-backs left in its result array. -/
theorem W3_v25 (c : Dev nD) : W3 m ρ c (Proc.devRef .tc main_v25) = (dat0 (V1 m ρ) c).arrAt 5 cfg0.N := by
  show StableHlo.after hostOps1 (W2 m ρ c) (Proc.devRef .tc main_v25) = _
  after_results_simp
  exact W2_arr m ρ c 5

theorem W3_v37 (c : Dev nD) :
    W3 m ρ c (Proc.devRef .tc main_v37) = meanK ((dat0 (V1 m ρ) c).arrAt 5 cfg0.N) (m ((c : Thread nD τ).loc main_arg1)) := by
  show StableHlo.after hostOps1 (W2 m ρ c) (Proc.devRef .tc main_v37) = _
  after_results_simp
  rw [W2_of_ne m ρ c main_v1 (by decide), W2_of_ne m ρ c main_v3 (by decide), W2_of_ne m ρ c main_v12 (by decide),
    W1_v1, W1_v3, W1_v12, show W2 m ρ c (Proc.devRef .tc main_v25) = (dat0 (V1 m ρ) c).arrAt 5 cfg0.N from W2_arr m ρ c 5]
  rfl

theorem W3_arg5 (c : Dev nD) : W3 m ρ c (Proc.devRef .tc main_arg5) = m ((c : Thread nD τ).loc main_arg5) := by
  show StableHlo.after hostOps1 (W2 m ρ c) (Proc.devRef .tc main_arg5) = _
  after_results_simp
  rw [W2_of_ne m ρ c main_arg5 (by decide)]
  exact W1_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  rw [W2_of_ne m ρ c main_arg6 (by decide)]
  exact W1_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  rw [W2_of_ne m ρ c main_arg7 (by decide)]
  exact W1_arg7 m ρ c

end Cert.KernelIdeal.HostV

end
-- ==== Proof.Spec.lean ====
/-
  The mathematics of one mean-aggregation graph layer, over the extended reals, stated once.

  A layer takes node features `X` (one row per node), the neighbourhood means `A` (one row per node), two weight
  matrices stored output-row-major (`Wl`, `Wr`: row `q` holds the weights of output feature `q`) and a bias `b`,
  and produces, at node `p` and output feature `q`,
      (Σ_k A[p,k]·Wl[q,k] + b[q]) + Σ_k X[p,k]·Wr[q,k].
  Both sums run over the 128 input features.  Each output row depends on the same row of `A` and `X` only, so the
  function commutes with cutting the node axis into blocks of rows (`linAt_rows`).
  The mean itself is a row-wise quotient by a count that is at least one; dividing by such a count and multiplying
  by its reciprocal are the same operation on every extended real (`mul_recip_eq_div`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals with `n0` rows and `n1` columns. -/
abbrev Mat (n0 n1 : Nat) : Type := (⟨2, ![n0, n1]⟩ : Shape).Idx → EReal
/-- A vector of extended reals of length `n`. -/
abbrev Vc (n : Nat) : Type := (⟨1, ![n]⟩ : Shape).Idx → EReal

/-- The layer's value at node `p`, output feature `q`. -/
def linAt {R O : Nat} (A X : Mat R 128) (Wl : Mat O 128) (b : Vc O) (Wr : Mat O 128) (p : Fin R) (q : Fin O) : EReal :=
  (∑ k : Fin 128, A (ix2 p k) * Wl (ix2 q k) + b (ix1 q)) + ∑ k : Fin 128, X (ix2 p k) * Wr (ix2 q k)

/-- The layer as a whole matrix. -/
def lin {R O : Nat} (A X : Mat R 128) (Wl : Mat O 128) (b : Vc O) (Wr : Mat O 128) : Mat R O :=
  fun i => linAt A X Wl b Wr (i 0) (i 1)

/-- The rectifier against the zero word, entry by entry. -/
def relu {R O : Nat} (Z : Mat R O) : Mat R O := fun i => max (Z i) (Ideal.ofBits .f32 0x00000000#32)

theorem lin_apply {R O : Nat} (A X : Mat R 128) (Wl : Mat O 128) (b : Vc O) (Wr : Mat O 128) (p : Fin R) (q : Fin O) :
    lin A X Wl b Wr (ix2 p q) = linAt A X Wl b Wr p q := rfl

theorem relu_apply {R O : Nat} (Z : Mat R O) (i : (⟨2, ![R, O]⟩ : Shape).Idx) :
    relu Z i = max (Z i) (Ideal.ofBits .f32 0x00000000#32) := rfl

/-- A row of the layer's output reads one row of each of `A` and `X`: if row `p` of `(A, X)` is row `p'` of
    `(A', X')`, the two layers agree there. -/
theorem linAt_rows {R R' O : Nat} (A X : Mat R 128) (A' X' : Mat R' 128) (Wl : Mat O 128) (b : Vc O) (Wr : Mat O 128)
    (p : Fin R) (p' : Fin R') (q : Fin O)
    (hA : ∀ k : Fin 128, A (ix2 p k) = A' (ix2 p' k)) (hX : ∀ k : Fin 128, X (ix2 p k) = X' (ix2 p' k)) :
    linAt A X Wl b Wr p q = linAt A' X' Wl b Wr p' q := by
  simp only [linAt, hA, hX]

/-- The float word of one is the real one. -/
theorem ofBits_one_f32 : Ideal.ofBits .f32 0x3F800000#32 = 1 := by
  simp [Ideal.ofBits, Ideal.ieee]
  rw [← EReal.coe_mul, ← EReal.coe_one]
  exact congrArg _ (by norm_num)

/-- Multiplying by the reciprocal of a count clipped below at one is dividing by it, on every extended real:
    the clipped count is never zero, and off zero the quotient is the product with the inverse. -/
theorem mul_recip_eq_div (a c : EReal) :
    a * Ideal.div (Ideal.ofBits .f32 0x3F800000#32) (max c (Ideal.ofBits .f32 0x3F800000#32))
      = Ideal.div a (max c (Ideal.ofBits .f32 0x3F800000#32)) := by
  rw [ofBits_one_f32]
  have hne : max c 1 ≠ 0 := ne_of_gt (lt_of_lt_of_le zero_lt_one (le_max_right c 1))
  unfold Ideal.div
  rw [if_neg hne, if_neg hne, one_mul]

end Cert.Sage

end
-- ==== Proof.KBody0.lean ====
import proofs.«150900_j13305808683303_1_alg».proof.Proof.Gen.KernelIdeal.Skeleton
import proofs.«150900_j13305808683303_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body0

open Cert.KernelIdeal Cert.KernelIdeal.Gen
open Idealize.ShloMosaic Idealize.ShloMosaic.ValueIdx

/-! ## The product of a block of rows with a transposed weight matrix, read at an entry

Both products of the first layer contract the second axis of the row block with the second axis of the weight
matrix: entry `(p, q)` of the product is `Σ_k rows[p, k] · weights[q, k]`. -/

/-- The left operand is read at the output's row … -/
theorem rows_axis0 (i : S5000x128.Idx) (k : dot_S5000x128_S128x128_S5000x128_1_1_0_0_n_n.contr.Idx) :
    (dot_S5000x128_S128x128_S5000x128_1_1_0_0_n_n.lhsIdx i k 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
/-- … and the contracted feature; -/
theorem rows_axis1 (i : S5000x128.Idx) (k : dot_S5000x128_S128x128_S5000x128_1_1_0_0_n_n.contr.Idx) :
    (dot_S5000x128_S128x128_S5000x128_1_1_0_0_n_n.lhsIdx i k 1).val = (k ⟨0, by decide⟩).val :=
  dot_S5000x128_S128x128_S5000x128_1_1_0_0_n_n.lhsIdx_val_of_single rfl i k
/-- the weight matrix at the output's column, as its ROW, … -/
theorem weights_axis0 (i : S5000x128.Idx) (k : dot_S5000x128_S128x128_S5000x128_1_1_0_0_n_n.contr.Idx) :
    (dot_S5000x128_S128x128_S5000x128_1_1_0_0_n_n.rhsIdx i k 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
/-- … and the contracted feature. -/
theorem weights_axis1 (i : S5000x128.Idx) (k : dot_S5000x128_S128x128_S5000x128_1_1_0_0_n_n.contr.Idx) :
    (dot_S5000x128_S128x128_S5000x128_1_1_0_0_n_n.rhsIdx i k 1).val = (k ⟨0, by decide⟩).val :=
  dot_S5000x128_S128x128_S5000x128_1_1_0_0_n_n.rhsIdx_val_of_single rfl i k

/-- Entry `(p, q)` of a row block times a transposed weight matrix, accumulated into zero. -/
theorem rows_times_weightsT {φ₁ φ₂ : FTy} (a : FVec Ideal S5000x128 φ₁) (w : FVec Ideal S128x128 φ₂) (p : Fin 5000) (q : Fin 128) :
    matmul dot_S5000x128_S128x128_S5000x128_1_1_0_0_n_n none a w (constant (F := Ideal) S5000x128 .f32 0x00000000#32) (ix2 p q)
      = ∑ k : Fin 128, a (ix2 p k) * w (ix2 q k) := by
  simp only [matmul]
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun a => Fin.ext (by
    match a with
    | ⟨0, _⟩ => exact rows_axis0 _ _
    | ⟨1, _⟩ => exact (rows_axis1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun a => Fin.ext (by
    match a with
    | ⟨0, _⟩ => exact weights_axis0 _ _
    | ⟨1, _⟩ => exact (weights_axis1 _ _).trans hk)
  rw [el, er]

/-! ## The bias row spread over the block -/

/-- The bias vector, given a unit leading axis and repeated down the rows, reads the bias of the column. -/
theorem bias_row (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The body's arithmetic at an entry -/

/-- What the first layer's body stores at row `p`, column `q` of its block: the rectified layer value of the blocks
    it loaded (neighbourhood means `v1`, node features `v0`, the two weight matrices `v5`, `v7` and the bias `v9`). -/
theorem body_at (v0 v1 : Vec Ideal S5000x128 .f32) (v5 v7 : Vec Ideal S128x128 .f32) (v9 : Vec Ideal S128 .f32)
    (p : Fin 5000) (q : Fin 128) :
    k0_pay1 (F := Ideal) v0 v1 v5 v7 v9 (ix2 p q)
      = max (Cert.Sage.linAt (R := 5000) (O := 128) v1 v0 v5 v9 v7 p q) (Ideal.ofBits .f32 0x00000000#32) := by
  unfold k0_pay1
  rw [shapeCast_self]
  rw [maximumf_apply, addf_apply, addf_apply, rows_times_weightsT, rows_times_weightsT, bias_row, broadcast_apply]
  rfl

end Cert.KernelIdeal.Body0

end
-- ==== Proof.KFinal0.lean ====
import proofs.«150900_j13305808683303_1_alg».proof.Proof.Gen.KernelIdeal.Frame
import proofs.«150900_j13305808683303_1_alg».proof.Proof.Spec
import proofs.«150900_j13305808683303_1_alg».proof.Proof.KBody0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole rank-2 block … -/
theorem hz : (![0, 0] : Fin 2 → Nat) = fun _ => 0 := funext fun a => by fin_cases a <;> rfl
/-- … and of a whole rank-1 block. -/
theorem hz1 : (![0] : Fin 1 → Nat) = fun _ => 0 := funext fun a => by fin_cases a <;> rfl

/-- What the body leaves in the output block is its arithmetic applied to the five loaded blocks. -/
theorem out_eq (x0 x1 : Vec Ideal S5000x128 .f32) (x2 : Vec Ideal S128x128 .f32) (x3 : Vec Ideal S128 .f32) (x4 : Vec Ideal S128x128 .f32) :
    out0_5 (F := Ideal) x0 x1 x2 x3 x4 = k0_pay1 x0 x1 x2 x4 x3 := by
  unfold out0_5
  rw [View.canon_unit_zero hz]
  simp only [View.ld_unit_zero (S := S5000x128) hz, View.ld_unit_zero (S := S128x128) hz, View.ld_unit_zero (S := S128) hz1]

/-- The index maps over the twenty points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The region has twenty points. -/
theorem N_eq : cfg0.N = 20 := by decide +kernel

/-- The node-feature block at point `t`, entry by entry, is the node features read where the block sits. -/
theorem feat_read (c : Dev nD) (t : Fin cfg0.N) (y : S5000x128.Idx) :
    (iblk0 V c 0 t : Vec Ideal S5000x128 .f32) y = (V c main_arg0 : S100000x128.Idx → EReal) (((cfg0.win 0).blk t).view.emb y) := rfl

/-- A row of a block of 5000 rows is a row of the array. -/
theorem row_lt (t : Fin cfg0.N) (p : Fin 5000) : t.val * 5000 + p.val < 100000 := by
  have h : t.val < 20 := lt_of_lt_of_eq t.isLt N_eq
  have hp : p.val < 5000 := p.isLt
  omega

/-! ### Where each window's block sits in its array -/

theorem feat_emb (t : Fin cfg0.N) (p : Fin 5000) (k : Fin 128) :
    (((cfg0.win 0).blk t).view.emb (ix2 p k) : S100000x128.Idx) = ix2 ⟨t.val * 5000 + p.val, row_lt t p⟩ k := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem mean_emb (t : Fin cfg0.N) (p : Fin 5000) (k : Fin 128) :
    (((cfg0.win 1).blk t).view.emb (ix2 p k) : S100000x128.Idx) = ix2 ⟨t.val * 5000 + p.val, row_lt t p⟩ k := by
  obtain ⟨-, -, e0, e1, -⟩ := idx_facts t
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem wl_emb (t : Fin cfg0.N) (q k : Fin 128) :
    (((cfg0.win 2).blk t).view.emb (ix2 q k) : S128x128.Idx) = ix2 q k := by
  obtain ⟨-, -, -, -, e0, e1, -⟩ := idx_facts t
  funext a; apply Fin.ext
  match a with
  | ⟨0, _⟩ => show win0_2.index t (0 : Fin 2) * 128 + 1 * q.val = q.val; rw [e0]; omega
  | ⟨1, _⟩ => show win0_2.index t (1 : Fin 2) * 128 + 1 * k.val = k.val; rw [e1]; omega

theorem bias_emb (t : Fin cfg0.N) (q : Fin 128) :
    (((cfg0.win 3).blk t).view.emb (ix1 q) : S128.Idx) = ix1 q := by
  obtain ⟨-, -, -, -, -, -, e0, -⟩ := idx_facts t
  funext a; apply Fin.ext
  match a with
  | ⟨0, _⟩ => show win0_3.index t (0 : Fin 1) * 128 + 1 * q.val = q.val; rw [e0]; omega

theorem wr_emb (t : Fin cfg0.N) (q k : Fin 128) :
    (((cfg0.win 4).blk t).view.emb (ix2 q k) : S128x128.Idx) = ix2 q k := by
  obtain ⟨-, -, -, -, -, -, -, e0, e1, -⟩ := idx_facts t
  funext a; apply Fin.ext
  match a with
  | ⟨0, _⟩ => show win0_4.index t (0 : Fin 2) * 128 + 1 * q.val = q.val; rw [e0]; omega
  | ⟨1, _⟩ => show win0_4.index t (1 : Fin 2) * 128 + 1 * k.val = k.val; rw [e1]; omega

theorem out_emb (t : Fin cfg0.N) (p : Fin 5000) (q : Fin 128) :
    (((cfg0.win 5).blk t).view.emb (ix2 p q) : S100000x128.Idx) = ix2 ⟨t.val * 5000 + p.val, row_lt t p⟩ q := by
  obtain ⟨-, -, -, -, -, -, -, -, -, e0, e1⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ### Each input block, read off its array -/

theorem mean_read (c : Dev nD) (t : Fin cfg0.N) (y : S5000x128.Idx) :
    (iblk0 V c 1 t : Vec Ideal S5000x128 .f32) y = (V c main_v24 : S100000x128.Idx → EReal) (((cfg0.win 1).blk t).view.emb y) := rfl
theorem wl_read (c : Dev nD) (t : Fin cfg0.N) (y : S128x128.Idx) :
    (iblk0 V c 2 t : Vec Ideal S128x128 .f32) y = (V c main_arg2 : S128x128.Idx → EReal) (((cfg0.win 2).blk t).view.emb y) := rfl
theorem bias_read (c : Dev nD) (t : Fin cfg0.N) (y : S128.Idx) :
    (iblk0 V c 3 t : Vec Ideal S128 .f32) y = (V c main_arg3 : S128.Idx → EReal) (((cfg0.win 3).blk t).view.emb y) := rfl
theorem wr_read (c : Dev nD) (t : Fin cfg0.N) (y : S128x128.Idx) :
    (iblk0 V c 4 t : Vec Ideal S128x128 .f32) y = (V c main_arg4 : S128x128.Idx → EReal) (((cfg0.win 4).blk t).view.emb y) := rfl

/-- Row `p` of the node-feature block at point `t` is row `5000 t + p` of the node features. -/
theorem feat_at (c : Dev nD) (t : Fin cfg0.N) (p : Fin 5000) (k : Fin 128) :
    (iblk0 V c 0 t : Vec Ideal S5000x128 .f32) (ix2 p k) = (V c main_arg0 : S100000x128.Idx → EReal) (ix2 ⟨t.val * 5000 + p.val, row_lt t p⟩ k) :=
  (feat_read V c t (ix2 p k)).trans (congrArg (V c main_arg0 : S100000x128.Idx → EReal) (feat_emb t p k))

/-- Row `p` of the neighbourhood-mean block at point `t` is row `5000 t + p` of the means. -/
theorem mean_at (c : Dev nD) (t : Fin cfg0.N) (p : Fin 5000) (k : Fin 128) :
    (iblk0 V c 1 t : Vec Ideal S5000x128 .f32) (ix2 p k) = (V c main_v24 : S100000x128.Idx → EReal) (ix2 ⟨t.val * 5000 + p.val, row_lt t p⟩ k) :=
  (mean_read V c t (ix2 p k)).trans (congrArg (V c main_v24 : S100000x128.Idx → EReal) (mean_emb t p k))

/-- The weight matrices and the bias are staged whole at every point. -/
theorem wl_whole (c : Dev nD) (t : Fin cfg0.N) : (iblk0 V c 2 t : Vec Ideal S128x128 .f32) = (V c main_arg2 : S128x128.Idx → EReal) := by
  funext y
  obtain ⟨q, k, rfl⟩ : ∃ (q k : Fin 128), y = ix2 q k := ⟨y 0, y 1, eq_ix2 y⟩
  exact (wl_read V c t (ix2 q k)).trans (congrArg (V c main_arg2 : S128x128.Idx → EReal) (wl_emb t q k))
theorem bias_whole (c : Dev nD) (t : Fin cfg0.N) : (iblk0 V c 3 t : Vec Ideal S128 .f32) = (V c main_arg3 : S128.Idx → EReal) := by
  funext y
  obtain ⟨q, rfl⟩ : ∃ (q : Fin 128), y = ix1 q := ⟨y 0, eq_ix1 y⟩
  exact (bias_read V c t (ix1 q)).trans (congrArg (V c main_arg3 : S128.Idx → EReal) (bias_emb t q))
theorem wr_whole (c : Dev nD) (t : Fin cfg0.N) : (iblk0 V c 4 t : Vec Ideal S128x128 .f32) = (V c main_arg4 : S128x128.Idx → EReal) := by
  funext y
  obtain ⟨q, k, rfl⟩ : ∃ (q k : Fin 128), y = ix2 q k := ⟨y 0, y 1, eq_ix2 y⟩
  exact (wr_read V c t (ix2 q k)).trans (congrArg (V c main_arg4 : S128x128.Idx → EReal) (wr_emb t q k))

/-! ### One block of the output -/

/-- The body's result at row `p` of a block whose rows are rows `r₀ + p` of the arrays is the rectified layer at
    row `r₀ + p`: a row of the layer reads that row of the means and of the features only. -/
theorem block_value (A X : Cert.Sage.Mat 100000 128) (Wl Wr : Cert.Sage.Mat 128 128) (b : Cert.Sage.Vc 128)
    (x0 x1 : Vec Ideal S5000x128 .f32) (x2 x4 : Vec Ideal S128x128 .f32) (x3 : Vec Ideal S128 .f32)
    (p : Fin 5000) (r : Fin 100000) (q : Fin 128)
    (h0 : ∀ k : Fin 128, x0 (ix2 p k) = X (ix2 r k)) (h1 : ∀ k : Fin 128, x1 (ix2 p k) = A (ix2 r k))
    (h2 : x2 = Wl) (h3 : x3 = b) (h4 : x4 = Wr) :
    out0_5 (F := Ideal) x0 x1 x2 x3 x4 (ix2 p q) = Cert.Sage.relu (Cert.Sage.lin A X Wl b Wr) (ix2 r q) := by
  subst h2 h3 h4
  rw [out_eq, Body0.body_at, Cert.Sage.relu_apply, Cert.Sage.lin_apply]
  exact congrArg (fun z => max z (Ideal.ofBits .f32 0x00000000#32))
    (Cert.Sage.linAt_rows x1 x0 A X x2 x3 x4 p r q h1 h0)

/-- What point `t` writes back is block `t` of the rectified layer of the arrays the region was entered with. -/
theorem flushed_eq (c : Dev nD) (t : Fin cfg0.N) :
    (dat0 (F := Ideal) V c).flushed 5 t = ((cfg0.win 5).blk t).view.read (Elt Ideal)
      (Cert.Sage.relu (Cert.Sage.lin (R := 100000) (O := 128) (V c main_v24) (V c main_arg0) (V c main_arg2) (V c main_arg3) (V c main_arg4))) := by
  show (cfg0.win 5).cut (grid0.coords t) ((dat0 V c).after 5 t) = _
  rw [after0_5]
  funext y
  obtain ⟨p, q, rfl⟩ : ∃ (p : Fin 5000) (q : Fin 128), y = ix2 p q := ⟨y 0, y 1, eq_ix2 y⟩
  show out0_5 (F := Ideal) (iblk0 V c 0 t) (iblk0 V c 1 t) (iblk0 V c 2 t) (iblk0 V c 3 t) (iblk0 V c 4 t) (ix2 p q)
    = Cert.Sage.relu (Cert.Sage.lin (R := 100000) (O := 128) (V c main_v24) (V c main_arg0) (V c main_arg2) (V c main_arg3) (V c main_arg4)) (((cfg0.win 5).blk t).view.emb (ix2 p q))
  refine (block_value (V c main_v24) (V c main_arg0) (V c main_arg2) (V c main_arg4) (V c main_arg3)
    (iblk0 V c 0 t) (iblk0 V c 1 t) (iblk0 V c 2 t) (iblk0 V c 4 t) (iblk0 V c 3 t) p ⟨t.val * 5000 + p.val, row_lt t p⟩ q
    (fun k => feat_at V c t p k) (fun k => mean_at V c t p k) (wl_whole V c t) (bias_whole V c t) (wr_whole V c t)).trans ?_
  exact congrArg (Cert.Sage.relu (Cert.Sage.lin (R := 100000) (O := 128) (V c main_v24) (V c main_arg0) (V c main_arg2) (V c main_arg3) (V c main_arg4))) (out_emb t p q).symm

/-! ### The twenty blocks fill the array -/

/-- An entry of the output array is in point `t`'s block exactly when each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the output lies in the block of point `r / 5000`, and every point writes its block back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by rw [N_eq]; omega
  refine ⟨⟨(i 0).val / 5000, ht⟩, flush0_5 _, ?_⟩
  rw [mem_blk]
  obtain ⟨-, -, -, -, -, -, -, -, -, e0, e1⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]
    omega

/-- After the first region the hidden-feature array holds the rectified layer of the arrays the region was entered
    with: node features, neighbourhood means, the two weight matrices and the bias. -/
theorem final0 (c : Dev nD) :
    (dat0 (F := Ideal) V c).arrAt 5 cfg0.N
      = Cert.Sage.relu (Cert.Sage.lin (R := 100000) (O := 128) (V c main_v24) (V c main_arg0) (V c main_arg2) (V c main_arg3) (V c main_arg4)) :=
  (dat0 (F := Ideal) V c).arrAt_eq_of_cover 5 _ (fun t _ => flushed_eq V c t) cover

end Cert.KernelIdeal.Final0

end
-- ==== Proof.KBody1.lean ====
import proofs.«150900_j13305808683303_1_alg».proof.Proof.Gen.KernelIdeal.Skeleton
import proofs.«150900_j13305808683303_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body1

open Cert.KernelIdeal Cert.KernelIdeal.Gen
open Idealize.ShloMosaic Idealize.ShloMosaic.ValueIdx Idealize.SL.Sem

/-! ## The product's operand indices

The second layer's products contract the feature axis (axis 1) of a block of 5000 rows with the feature axis
(axis 1) of a weight matrix stored output-row-major: entry (p, q) of the product reads row p of the block and
row q of the weights. -/

/-- The left operand is read in the output's row. -/
theorem lhs_row (i : S5000x64.Idx) (k : dot_S5000x128_S64x128_S5000x64_1_1_0_0_n_n.contr.Idx) :
    (dot_S5000x128_S64x128_S5000x64_1_1_0_0_n_n.lhsIdx i k 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl

/-- The left operand's feature coordinate is the summation index. -/
theorem lhs_feat (i : S5000x64.Idx) (k : dot_S5000x128_S64x128_S5000x64_1_1_0_0_n_n.contr.Idx) :
    (dot_S5000x128_S64x128_S5000x64_1_1_0_0_n_n.lhsIdx i k 1).val = (k ⟨0, by decide⟩).val :=
  dot_S5000x128_S64x128_S5000x64_1_1_0_0_n_n.lhsIdx_val_of_single rfl i k

/-- The right operand is read in the row of the output's column: the weights are stored output-row-major. -/
theorem rhs_row (i : S5000x64.Idx) (k : dot_S5000x128_S64x128_S5000x64_1_1_0_0_n_n.contr.Idx) :
    (dot_S5000x128_S64x128_S5000x64_1_1_0_0_n_n.rhsIdx i k 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl

/-- The right operand's feature coordinate is the summation index. -/
theorem rhs_feat (i : S5000x64.Idx) (k : dot_S5000x128_S64x128_S5000x64_1_1_0_0_n_n.contr.Idx) :
    (dot_S5000x128_S64x128_S5000x64_1_1_0_0_n_n.rhsIdx i k 1).val = (k ⟨0, by decide⟩).val :=
  dot_S5000x128_S64x128_S5000x64_1_1_0_0_n_n.rhsIdx_val_of_single rfl i k

/-- A product into the zero matrix, entry (p, q): the sum over the 128 features of block row p times weight row q. -/
theorem prod_apply (a : FVec Ideal S5000x128 .bf16) (w : FVec Ideal S64x128 .bf16) (p : Fin 5000) (q : Fin 64) :
    FloatOps.matmul dot_S5000x128_S64x128_S5000x64_1_1_0_0_n_n none a w (constant (F := Ideal) S5000x64 .f32 0x00000000#32) (ix2 p q)
      = ∑ k : Fin 128, a (ix2 p k) * w (ix2 q k) := by
  rw [Ideal.matmul_constant_zero_apply, ← Equiv.sum_comp (ValueIdx.contrEquiv1 dot_S5000x128_S64x128_S5000x64_1_1_0_0_n_n 128 rfl rfl).symm]
  refine Finset.sum_congr rfl fun k _ => ?_
  have hk := ValueIdx.contrEquiv1_symm_val dot_S5000x128_S64x128_S5000x64_1_1_0_0_n_n 128 rfl rfl k
  have el : dot_S5000x128_S64x128_S5000x64_1_1_0_0_n_n.lhsIdx (ix2 p q) ((ValueIdx.contrEquiv1 dot_S5000x128_S64x128_S5000x64_1_1_0_0_n_n 128 rfl rfl).symm k) = ix2 p k := funext fun x => Fin.ext (by
    match x with
    | ⟨0, _⟩ => exact lhs_row _ _
    | ⟨1, _⟩ => exact (lhs_feat _ _).trans hk)
  have er : dot_S5000x128_S64x128_S5000x64_1_1_0_0_n_n.rhsIdx (ix2 p q) ((ValueIdx.contrEquiv1 dot_S5000x128_S64x128_S5000x64_1_1_0_0_n_n 128 rfl rfl).symm k) = ix2 q k := funext fun x => Fin.ext (by
    match x with
    | ⟨0, _⟩ => exact rhs_row _ _
    | ⟨1, _⟩ => exact (rhs_feat _ _).trans hk)
  rw [el, er]

/-- The bias, laid out as one row and repeated over the 5000 rows of a block, reads its entry q in column q. -/
theorem bias_apply (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- THE BODY AT AN ENTRY. On a block of 5000 rows the body computes the layer: entry (p, q) is
    (Σ_k A[p,k]·Wl[q,k] + b[q]) + Σ_k X[p,k]·Wr[q,k], where the body's first operand is the block of X, its second
    the block of A. The casts to the same shape and the changes of float format are the identity on extended reals. -/
theorem body_apply (x a : Vec Ideal S5000x128 .f32) (wl wr : Vec Ideal S64x128 .f32) (b : Vec Ideal S64 .f32)
    (p : Fin 5000) (q : Fin 64) :
    k1_pay1 (F := Ideal) x a wl wr b (ix2 p q) = Cert.Sage.linAt (R := 5000) (O := 64) a x wl b wr p q := by
  unfold k1_pay1 Cert.Sage.linAt
  rw [shapeCast_self, shapeCast_self]
  show (FloatOps.matmul dot_S5000x128_S64x128_S5000x64_1_1_0_0_n_n none (truncf .bf16 a bitsLt_bf16_f32) (truncf .bf16 wl bitsLt_bf16_f32) (constant (F := Ideal) S5000x64 .f32 0x00000000#32) (ix2 p q)
      + broadcastTo S5000x64 (shapeCast S1x64 b shapeCasts_S64_S1x64) broadcasts_S1x64_S5000x64 (ix2 p q))
      + FloatOps.matmul dot_S5000x128_S64x128_S5000x64_1_1_0_0_n_n none (truncf .bf16 x bitsLt_bf16_f32) (truncf .bf16 wr bitsLt_bf16_f32) (constant (F := Ideal) S5000x64 .f32 0x00000000#32) (ix2 p q) = _
  rw [prod_apply, prod_apply, bias_apply]
  rfl

end Cert.KernelIdeal.Body1

end
-- ==== Proof.KFinal1.lean ====
import proofs.«150900_j13305808683303_1_alg».proof.Proof.Gen.KernelIdeal.Frame
import proofs.«150900_j13305808683303_1_alg».proof.Proof.Spec
import proofs.«150900_j13305808683303_1_alg».proof.Proof.KBody1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's result from whole staging buffers -/

theorem hz : (![0, 0] : Fin 2 → Nat) = fun _ => 0 := funext fun a => by fin_cases a <;> rfl
theorem hz1 : (![0] : Fin 1 → Nat) = fun _ => 0 := funext fun a => by fin_cases a; rfl

/-- The body loads each staging buffer whole and stores its result whole, so what it leaves in the result's buffer
    is its arithmetic of the five buffers (the bias is the fourth window and the body's fifth operand). -/
theorem out_eq (x0 x1 : Vec Ideal S5000x128 .f32) (x2 : Vec Ideal S64x128 .f32) (x3 : Vec Ideal S64 .f32) (x4 : Vec Ideal S64x128 .f32) :
    out1_5 (F := Ideal) x0 x1 x2 x3 x4 = k1_pay1 (F := Ideal) x0 x1 x2 x4 x3 := by
  unfold out1_5
  rw [View.canon_unit_zero hz]
  simp only [View.ld_unit_zero (S := S5000x128) hz, View.ld_unit_zero (S := S64x128) hz, View.ld_unit_zero (S := S64) hz1]

/-! ## Where the blocks sit -/

/-- The block index of each window at grid point t: the two row-blocked inputs and the result take block t of the
    node axis; the weights and the bias are taken whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … 5000·t + 4999 of the node-feature matrix. -/
theorem blk_X (c : Dev nD) (t : Fin cfg1.N) (p : Fin 5000) (k : Fin 128) (hp : t.val * 5000 + p.val < 100000) :
    (iblk1 V c 0 t : Vec Ideal S5000x128 .f32) (ix2 p k)
      = (V c main_v25 : S100000x128.Idx → EReal) (ix2 ⟨t.val * 5000 + p.val, hp⟩ k) := by
  obtain ⟨e0, e1, -⟩ := idx_facts t
  show (V c main_v25 : S100000x128.Idx → EReal) (((cfg1.win 0).blk t).view.emb (ix2 p k)) = _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1's block at point t is the same rows of the neighbourhood-mean matrix. -/
theorem blk_A (c : Dev nD) (t : Fin cfg1.N) (p : Fin 5000) (k : Fin 128) (hp : t.val * 5000 + p.val < 100000) :
    (iblk1 V c 1 t : Vec Ideal S5000x128 .f32) (ix2 p k)
      = (V c main_v37 : S100000x128.Idx → EReal) (ix2 ⟨t.val * 5000 + p.val, hp⟩ k) := by
  obtain ⟨-, -, e0, e1, -⟩ := idx_facts t
  show (V c main_v37 : S100000x128.Idx → EReal) (((cfg1.win 1).blk t).view.emb (ix2 p k)) = _
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2's block is the whole first weight matrix at every point. -/
theorem blk_Wl (c : Dev nD) (t : Fin cfg1.N) :
    (iblk1 V c 2 t : Vec Ideal S64x128 .f32) = (V c main_arg5 : S64x128.Idx → EReal) := by
  obtain ⟨-, -, -, -, e0, e1, -⟩ := idx_facts t
  funext y
  show (V c main_arg5 : S64x128.Idx → EReal) (((cfg1.win 2).blk t).view.emb y) = _
  congr 1
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- Window 3's block is the whole bias at every point. -/
theorem blk_b (c : Dev nD) (t : Fin cfg1.N) :
    (iblk1 V c 3 t : Vec Ideal S64 .f32) = (V c main_arg6 : S64.Idx → EReal) := by
  obtain ⟨-, -, -, -, -, -, e0, -⟩ := idx_facts t
  funext y
  show (V c main_arg6 : S64.Idx → EReal) (((cfg1.win 3).blk t).view.emb y) = _
  congr 1
  funext a; apply Fin.ext
  match a with
  | ⟨0, _⟩ => show win1_3.index t (0 : Fin 1) * 64 + 1 * (y 0).val = (y 0).val; omega

/-- Window 4's block is the whole second weight matrix at every point. -/
theorem blk_Wr (c : Dev nD) (t : Fin cfg1.N) :
    (iblk1 V c 4 t : Vec Ideal S64x128 .f32) = (V c main_arg7 : S64x128.Idx → EReal) := by
  obtain ⟨-, -, -, -, -, -, -, e0, e1, -⟩ := idx_facts t
  funext y
  show (V c main_arg7 : S64x128.Idx → EReal) (((cfg1.win 4).blk t).view.emb y) = _
  congr 1
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

/-- Entry (p, q) of the result's block at point t sits at row 5000·t + p, column q of the result. -/
theorem blk_out_emb (t : Fin cfg1.N) (p : Fin 5000) (q : Fin 64) (hp : t.val * 5000 + p.val < 100000) :
    (((cfg1.win 5).blk t).view.emb (ix2 p q) : S100000x64.Idx) = ix2 ⟨t.val * 5000 + p.val, hp⟩ q := by
  obtain ⟨-, -, -, -, -, -, -, -, -, e0, e1⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

/-! ## What a point writes back -/

/-- A grid point's rows stay inside the node axis: 20 blocks of 5000 rows. -/
theorem row_lt (t : Fin cfg1.N) (p : Fin 5000) : t.val * 5000 + p.val < 100000 := by
  have ht : t.val < 20 := lt_of_lt_of_eq t.isLt N_1
  have hp : p.val < 5000 := p.isLt
  omega

/-- The layer on the blocks at point t is the layer on the whole arrays, at the block's rows: a row of the output
    reads the same row of the two row-blocked inputs, and the weights and the bias are whole. -/
theorem linAt_blocks (c : Dev nD) (t : Fin cfg1.N) (p : Fin 5000) (q : Fin 64) :
    Cert.Sage.linAt (R := 5000) (O := 64) (iblk1 V c 1 t) (iblk1 V c 0 t) (iblk1 V c 2 t) (iblk1 V c 3 t) (iblk1 V c 4 t) p q
      = Cert.Sage.linAt (R := 100000) (O := 64) (V c main_v37) (V c main_v25) (V c main_arg5) (V c main_arg6) (V c main_arg7)
          ⟨t.val * 5000 + p.val, row_lt t p⟩ q := by
  rw [blk_Wl V c t, blk_b V c t, blk_Wr V c t]
  exact Cert.Sage.linAt_rows _ _ _ _ _ _ _ p ⟨t.val * 5000 + p.val, row_lt t p⟩ q
    (fun k => blk_A V c t p k (row_lt t p)) (fun k => blk_X V c t p k (row_lt t p))

/-- WHAT POINT t WRITES BACK is block t of the layer of the arrays the region was entered with. -/
theorem flushed_eq (c : Dev nD) (t : Fin cfg1.N) :
    (dat1 (F := Ideal) V c).flushed 5 t = ((cfg1.win 5).blk t).view.read (Elt Ideal)
      (Cert.Sage.lin (R := 100000) (O := 64) (V c main_v37) (V c main_v25) (V c main_arg5) (V c main_arg6) (V c main_arg7)) := by
  show (cfg1.win 5).cut (grid1.coords t) ((dat1 V c).after 5 t) = _
  rw [after1_5, out_eq]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 4 t) (iblk1 V c 3 t) (ix2 p q)
    = Cert.Sage.lin (R := 100000) (O := 64) (V c main_v37) (V c main_v25) (V c main_arg5) (V c main_arg6) (V c main_arg7)
        (((cfg1.win 5).blk t).view.emb (ix2 p q))
  rw [blk_out_emb t p q (row_lt t p), Cert.Sage.lin_apply]
  exact (Body1.body_apply _ _ _ _ _ p q).trans (linAt_blocks V c t p q)

/-! ## The blocks tile the result -/

/-- A row-column pair of the result is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v38).slice (win1_5.rect t)).set ↔ _
  rw [View.set_slice_whole, Rect.mem_set_unit]
  exact Iff.rfl

/-- Every entry of the result is written back by some point: row r by point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]
    omega

/-- After the second region the result array holds the (unrectified) layer of the arrays the region was entered
    with: hidden features, their neighbourhood means, the two weight matrices and the bias. -/
theorem final1 (c : Dev nD) :
    (dat1 (F := Ideal) V c).arrAt 5 cfg1.N
      = Cert.Sage.lin (R := 100000) (O := 64) (V c main_v37) (V c main_v25) (V c main_arg5) (V c main_arg6) (V c main_arg7) :=
  (dat1 (F := Ideal) V c).arrAt_eq_of_cover 5 _ (fun t _ => flushed_eq V c t) cover

end Cert.KernelIdeal.Final1

end
-- ==== Proof.KValue.lean ====
/-
  What the kernel's program leaves in its result array, as one function of the argument arrays.

  The first region leaves the rectified layer of the node features and their neighbourhood means (the hidden
  features); the host code between the regions takes the neighbourhood means of those; the second region leaves the
  layer of the hidden features and their means.  The weights and biases reach each region unchanged from the launch.
-/
import proofs.«150900_j13305808683303_1_alg».proof.Proof.KHost
import proofs.«150900_j13305808683303_1_alg».proof.Proof.KFinal0
import proofs.«150900_j13305808683303_1_alg».proof.Proof.KFinal1
import proofs.«150900_j13305808683303_1_alg».proof.Proof.Spec

set_option maxRecDepth 16384

noncomputable section

namespace Cert.KernelIdeal.ValueK

open Cert.KernelIdeal Cert.KernelIdeal.Gen Cert.KernelIdeal.HostV
open Idealize.ShloMosaic Idealize.ShloMosaic.TcCoe Idealize.SL.Sem

variable (m : (ℓ : Loc nD τ sig) → Buf (Elt Ideal) ℓ) (ρ : Dev nD → PrngReg)

/-- The hidden features on core `c`: the rectified first layer of the launch arrays. -/
def hiddenK (c : Dev nD) : Cert.Sage.Mat 100000 128 :=
  Cert.Sage.relu (Cert.Sage.lin (R := 100000) (O := 128)
    (meanK (F := Ideal) (m ((c : Thread nD τ).loc main_arg0)) (m ((c : Thread nD τ).loc main_arg1)))
    (m ((c : Thread nD τ).loc main_arg0)) (m ((c : Thread nD τ).loc main_arg2)) (m ((c : Thread nD τ).loc main_arg3))
    (m ((c : Thread nD τ).loc main_arg4)))

/-- The first region's result array ends at the hidden features. -/
theorem hidden_eq (c : Dev nD) : (dat0 (F := Ideal) (V1 m ρ) c).arrAt 5 cfg0.N = hiddenK m c := by
  rw [Cert.KernelIdeal.Final0.final0 (V1 m ρ) c]
  show Cert.Sage.relu (Cert.Sage.lin (R := 100000) (O := 128) (W1 m ρ c (Proc.devRef .tc main_v24)) (W1 m ρ c (Proc.devRef .tc main_arg0))
    (W1 m ρ c (Proc.devRef .tc main_arg2)) (W1 m ρ c (Proc.devRef .tc main_arg3)) (W1 m ρ c (Proc.devRef .tc main_arg4))) = _
  rw [W1_v24, W1_arg0, W1_arg2, W1_arg3, W1_arg4]
  rfl

/-- The result array at the last boundary: the second layer of the hidden features and their neighbourhood means. -/
theorem result_eq (c : Dev nD) :
    W4 m ρ c (Proc.devRef .tc main_v38)
      = Cert.Sage.lin (R := 100000) (O := 64) (meanK (F := Ideal) (hiddenK m c) (m ((c : Thread nD τ).loc main_arg1))) (hiddenK m c)
          (m ((c : Thread nD τ).loc main_arg5)) (m ((c : Thread nD τ).loc main_arg6)) (m ((c : Thread nD τ).loc main_arg7)) := by
  rw [show W4 m ρ c (Proc.devRef .tc main_v38) = (dat1 (F := Ideal) (V3 m ρ) c).arrAt 5 cfg1.N from W4_arr m ρ c 5,
    Cert.KernelIdeal.Final1.final1 (V3 m ρ) c]
  show Cert.Sage.lin (R := 100000) (O := 64) (W3 m ρ c (Proc.devRef .tc main_v37)) (W3 m ρ c (Proc.devRef .tc main_v25))
    (W3 m ρ c (Proc.devRef .tc main_arg5)) (W3 m ρ c (Proc.devRef .tc main_arg6)) (W3 m ρ c (Proc.devRef .tc main_arg7)) = _
  rw [W3_v37, W3_v25, W3_arg5, W3_arg6, W3_arg7, hidden_eq]

end Cert.KernelIdeal.ValueK

end
-- ==== Proof.RefValue.lean ====
import proofs.«150900_j13305808683303_1_alg».proof.Proof.Gen.ReferenceIdeal.Run
import proofs.«150900_j13305808683303_1_alg».proof.Proof.Gen.ReferenceIdeal.Read
import proofs.«150900_j13305808683303_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-- The left operand of the first layer's products is read at row `p`, column `k`. -/
private theorem lidx24 (p : Fin 100000) (q k : Fin 128) : lidx_main_v24 (ix2 p q) k = ix2 p k :=
  funext fun a => Fin.ext (by match a with | ⟨0, _⟩ => rfl | ⟨1, _⟩ => rfl)

/-- The transposed weight at `(k, q)` is the stored weight at `(q, k)`. -/
private theorem ridx24 (p : Fin 100000) (q k : Fin 128) : idx_main_v23 (ridx_main_v24 (ix2 p q) k) = ix2 q k :=
  funext fun a => Fin.ext (by match a with | ⟨0, _⟩ => rfl | ⟨1, _⟩ => rfl)

/-- The node features are read at row `p`, column `k`. -/
private theorem lidx29 (p : Fin 100000) (q k : Fin 128) : lidx_main_v29 (ix2 p q) k = ix2 p k :=
  funext fun a => Fin.ext (by match a with | ⟨0, _⟩ => rfl | ⟨1, _⟩ => rfl)

/-- The transposed root weight at `(k, q)` is the stored weight at `(q, k)`. -/
private theorem ridx29 (p : Fin 100000) (q k : Fin 128) : idx_main_v28 (ridx_main_v29 (ix2 p q) k) = ix2 q k :=
  funext fun a => Fin.ext (by match a with | ⟨0, _⟩ => rfl | ⟨1, _⟩ => rfl)

/-- The bias broadcast along the rows is read at the column. -/
private theorem bidx26 (p : Fin 100000) (q : Fin 128) : idx_main_v25 (idx_main_v26 (ix2 p q)) = ix1 q :=
  funext fun a => Fin.ext (by match a with | ⟨0, _⟩ => rfl)

/-- The reference's hidden features are the rectified layer of the node features and their neighbourhood means. -/
theorem hidden_eq :
    val_main_v31 (F := Ideal) x0 x1 x2 x3 x4
      = Cert.Sage.relu (Cert.Sage.lin (R := 100000) (O := 128) (val_main_v22 (F := Ideal) x0 x1) x0 x2 x3 x4) := by
  funext i
  obtain ⟨p, q, rfl⟩ : ∃ (p : Fin 100000) (q : Fin 128), i = ix2 p q := ⟨i 0, i 1, eq_ix2 i⟩
  rw [Cert.Sage.relu_apply, Cert.Sage.lin_apply]
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply, lidx24, ridx24, lidx29, ridx29, bidx26]
  generalize val_main_v22 (F := Ideal) x0 x1 = A
  simp only [Cert.Sage.linAt, Ideal.addf_def, Ideal.maximumf_def, Ideal.ofBits_def]

/-- The second layer's neighbourhood means are the first layer's mean operator applied to the hidden features:
    the same gather, scatter-add, count and quotient, over the same edge list. -/
theorem mean2_eq :
    val_main_v50 (F := Ideal) x0 x1 x2 x3 x4 = val_main_v22 (F := Ideal) (val_main_v31 (F := Ideal) x0 x1 x2 x3 x4) x1 := by
  unfold val_main_v50 val_main_v41 val_main_v38
  generalize val_main_v31 (F := Ideal) x0 x1 x2 x3 x4 = Z
  unfold val_main_v22 val_main_v13 val_main_v10
  unfold val_main_v49 val_main_v48 val_main_v47 val_main_v46 val_main_v45 val_main_v44 val_main_v43 val_main_v42
    val_main_v40 val_main_v39 val_main_v37 val_main_v36 val_main_v35 val_main_v34 val_main_v33 val_main_v32
    val_main_cst_6 val_main_cst_7 val_main_cst_8 val_main_cst_9 val_main_c_4 val_main_c_5
  unfold val_main_v21 val_main_v20 val_main_v19 val_main_v18 val_main_v17 val_main_v16 val_main_v15 val_main_v14
    val_main_v12 val_main_v11 val_main_v9 val_main_v8 val_main_v7 val_main_v6 val_main_v5 val_main_v4
    val_main_cst val_main_cst_1 val_main_cst_2 val_main_cst_3 val_main_c val_main_c_0
  rfl

/-- Second layer: the means are read at row `p`, column `k`. -/
private theorem lidx52 (p : Fin 100000) (q : Fin 64) (k : Fin 128) : lidx_main_v52 (ix2 p q) k = ix2 p k :=
  funext fun a => Fin.ext (by match a with | ⟨0, _⟩ => rfl | ⟨1, _⟩ => rfl)

/-- Second layer: the transposed neighbour weight at `(k, q)` is the stored weight at `(q, k)`. -/
private theorem ridx52 (p : Fin 100000) (q : Fin 64) (k : Fin 128) : idx_main_v51 (ridx_main_v52 (ix2 p q) k) = ix2 q k :=
  funext fun a => Fin.ext (by match a with | ⟨0, _⟩ => rfl | ⟨1, _⟩ => rfl)

/-- Second layer: the hidden features are read at row `p`, column `k`. -/
private theorem lidx57 (p : Fin 100000) (q : Fin 64) (k : Fin 128) : lidx_main_v57 (ix2 p q) k = ix2 p k :=
  funext fun a => Fin.ext (by match a with | ⟨0, _⟩ => rfl | ⟨1, _⟩ => rfl)

/-- Second layer: the transposed root weight at `(k, q)` is the stored weight at `(q, k)`. -/
private theorem ridx57 (p : Fin 100000) (q : Fin 64) (k : Fin 128) : idx_main_v56 (ridx_main_v57 (ix2 p q) k) = ix2 q k :=
  funext fun a => Fin.ext (by match a with | ⟨0, _⟩ => rfl | ⟨1, _⟩ => rfl)

/-- Second layer: the bias broadcast along the rows is read at the column. -/
private theorem bidx54 (p : Fin 100000) (q : Fin 64) : idx_main_v53 (idx_main_v54 (ix2 p q)) = ix1 q :=
  funext fun a => Fin.ext (by match a with | ⟨0, _⟩ => rfl)

/-- The reference's result is the (unrectified) layer of the hidden features and their neighbourhood means. -/
theorem out_eq :
    val_main_v58 (F := Ideal) x0 x1 x2 x3 x4 x5 x6 x7
      = Cert.Sage.lin (R := 100000) (O := 64) (val_main_v50 (F := Ideal) x0 x1 x2 x3 x4) (val_main_v31 (F := Ideal) x0 x1 x2 x3 x4) x5 x6 x7 := by
  funext i
  obtain ⟨p, q, rfl⟩ : ∃ (p : Fin 100000) (q : Fin 64), i = ix2 p q := ⟨i 0, i 1, eq_ix2 i⟩
  rw [Cert.Sage.lin_apply]
  rw [val_main_v58_apply, val_main_v55_apply, val_main_v52_apply, val_main_v57_apply, val_main_v54_apply,
    val_main_v53_apply]
  simp only [val_main_v51_apply, val_main_v56_apply, lidx52, ridx52, lidx57, ridx57, bidx54]
  generalize val_main_v50 (F := Ideal) x0 x1 x2 x3 x4 = A
  generalize val_main_v31 (F := Ideal) x0 x1 x2 x3 x4 = H
  simp only [Cert.Sage.linAt, Ideal.addf_def]

end Cert.ReferenceIdeal.RefValue

end
-- ==== Proof.Bridge.lean ====
/-
  The kernel's neighbourhood mean and the reference's are one operator.

  Both gather the rows of a feature matrix at the edges' (wrapped) source indices and sum them into the edges'
  destination rows, and both count each node's incoming edges the same way.  The kernel then scales row `p` by the
  reciprocal `1 / max(count p, 1)`; the reference divides row `p` by `max(count p, 1)`.  The clipped count is at least
  one, hence not zero, and off zero a quotient of extended reals is the product with the inverse: the two agree at
  every entry, whatever the summed rows hold.
-/
import proofs.«150900_j13305808683303_1_alg».proof.Proof.KHost
import proofs.«150900_j13305808683303_1_alg».proof.Proof.Gen.ReferenceIdeal.Read
import proofs.«150900_j13305808683303_1_alg».proof.Proof.Spec
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx
open Cert.KernelIdeal.HostV
open Cert.ReferenceIdeal Cert.ReferenceIdeal.Read

/-- The summed rows are the same array on both sides: the same gather and scatter-add over the same indices. -/
theorem sumK_eq (Z : (⟨S100000x128, .f32⟩ : BufTy).Contents (Elt Ideal)) (e : (⟨S2x1600000, .i32⟩ : BufTy).Contents (Elt Ideal)) :
    sumK (F := Ideal) Z e = val_main_v13 (F := Ideal) Z e := rfl

/-- The in-degrees are the same array on both sides. -/
theorem cntK_eq (e : (⟨S2x1600000, .i32⟩ : BufTy).Contents (Elt Ideal)) :
    cntK (F := Ideal) e = val_main_v17 (F := Ideal) e := rfl

/-- A column broadcast along the rows' 128 entries is read at the row. -/
private theorem rows_apply (h : S100000x1.BroadcastsInDim S100000x128 (![0, 1] : Fin 2 → Fin S100000x128.rank))
    (y : (⟨S100000x1, .f32⟩ : BufTy).Contents (Elt Ideal)) (i : S100000x128.Idx) :
    broadcastInDim S100000x128 ![0, 1] h y i = y (idx_main_v21 i) :=
  broadcastInDim_apply _ h y i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A vector made a column is read at its row. -/
private theorem col_apply (h : S100000.BroadcastsInDim S100000x1 (![0] : Fin 1 → Fin S100000x1.rank))
    (y : (⟨S100000, .f32⟩ : BufTy).Contents (Elt Ideal)) (j : S100000x1.Idx) :
    broadcastInDim S100000x1 ![0] h y j = y (idx_main_v20 j) :=
  broadcastInDim_apply _ h y j (idx_main_v20 j) (fun a => match a with
    | ⟨0, _⟩ => by show (j 0).val = if (100000 : Nat) = 1 then 0 else (j 0).val; rw [if_neg (by decide)])

/-- A scalar splat over the node axis is the scalar at every node. -/
private theorem splat_apply (h : S_.BroadcastsInDim S100000 (![] : Fin 0 → Fin S100000.rank))
    (y : (⟨S_, .f32⟩ : BufTy).Contents (Elt Ideal)) (j : S100000.Idx) :
    broadcastInDim S100000 ![] h y j = y ix0 :=
  broadcastInDim_apply _ h y j ix0 (fun a => a.elim0)

/-- The host's quotient of two arrays at an entry is the quotient of the entries. -/
private theorem hostDivf_apply {s : Shape} (a b : FVec Ideal s .f32) (j : s.Idx) :
    Host.divf a b j = Ideal.div (a j) (b j) := rfl

/-- The kernel's reciprocal count, broadcast over a row, at an entry: the reciprocal of the clipped in-degree of
    the entry's node. -/
theorem invCnt_apply (e : (⟨S2x1600000, .i32⟩ : BufTy).Contents (Elt Ideal)) (i : S100000x128.Idx) :
    broadcastInDim S100000x128 ![0, 1] Cert.KernelIdeal.Gen.bcast_S100000x1_S100000x128_0_1 (invCnt (F := Ideal) e) i
      = Ideal.div (Ideal.ofBits .f32 0x3F800000#32)
          (max (cntK (F := Ideal) e (idx_main_v20 (idx_main_v21 i))) (Ideal.ofBits .f32 0x3F800000#32)) := by
  rw [rows_apply]
  unfold invCnt
  rw [col_apply, hostDivf_apply, maximumf_apply, splat_apply, constant_apply]

/-- The reference's clipped count, broadcast over a row, at an entry. -/
theorem clipCnt_apply (e : (⟨S2x1600000, .i32⟩ : BufTy).Contents (Elt Ideal)) (i : S100000x128.Idx) :
    val_main_v21 (F := Ideal) e i
      = max (val_main_v17 (F := Ideal) e (idx_main_v20 (idx_main_v21 i))) (Ideal.ofBits .f32 0x3F800000#32) := by
  rw [val_main_v21_apply, val_main_v20_apply, val_main_v19_apply, val_main_v18_apply, val_main_cst_3_apply]
  rfl

/-- The two means agree: scaling a row by the reciprocal of its clipped count is dividing it by the clipped count. -/
theorem meanK_eq (Z : (⟨S100000x128, .f32⟩ : BufTy).Contents (Elt Ideal)) (e : (⟨S2x1600000, .i32⟩ : BufTy).Contents (Elt Ideal)) :
    meanK (F := Ideal) Z e = val_main_v22 (F := Ideal) Z e := by
  funext i
  unfold meanK
  rw [mulf_apply, val_main_v22_apply, Ideal.hostDivf_def, invCnt_apply, clipCnt_apply, sumK_eq, cntK_eq]
  exact Cert.Sage.mul_recip_eq_div _ _

end Cert.Bridge

end
-- ==== Proof.lean ====
/-
  The certificate: two mean-aggregation graph layers, the dense part of each a tiled kernel, against the plain
  array program.

  Over the extended reals both programs compute, for node `p` and output feature `q`,
      out[p,q] = (Σ_k M(H)[p,k]·W2l[q,k] + b2[q]) + Σ_k H[p,k]·W2r[q,k],
      H[p,k]  = max((Σ_j M(x)[p,j]·W1l[k,j] + b1[k]) + Σ_j x[p,j]·W1r[k,j], 0),
  where `M(Z)` is the neighbourhood mean of the rows of `Z` along the edge list.  The kernel computes each layer's
  dense part block by block over the node axis (20 blocks of 5000 rows; a row of the output reads one row of each
  input, so the blocks are restrictions of one whole-array function) with the weights stored output-row-major and
  contracted along their second axis; the reference transposes the weights and contracts along the first: the same
  finite sums.  The kernel scales the summed neighbour rows by the reciprocal of the clipped in-degree where the
  reference divides by the clipped in-degree: equal on every extended real, because the clipped in-degree is at least
  one.  No finiteness of the inputs is used.
-/
import proofs.«150900_j13305808683303_1_alg».proof.Defs
import proofs.«150900_j13305808683303_1_alg».proof.Proof.Gen.Kernel
import proofs.«150900_j13305808683303_1_alg».proof.Proof.Gen.Kernel.Skeleton
import proofs.«150900_j13305808683303_1_alg».proof.Proof.Gen.Kernel.Launch
import proofs.«150900_j13305808683303_1_alg».proof.Proof.Gen.Kernel.Points
import proofs.«150900_j13305808683303_1_alg».proof.Proof.Gen.Kernel.Frame
import proofs.«150900_j13305808683303_1_alg».proof.Proof.Gen.KernelIdeal
import proofs.«150900_j13305808683303_1_alg».proof.Proof.Gen.KernelIdeal.Skeleton
import proofs.«150900_j13305808683303_1_alg».proof.Proof.Gen.KernelIdeal.Launch
import proofs.«150900_j13305808683303_1_alg».proof.Proof.Gen.KernelIdeal.Points
import proofs.«150900_j13305808683303_1_alg».proof.Proof.Gen.KernelIdeal.Frame
import proofs.«150900_j13305808683303_1_alg».proof.Proof.Gen.ReferenceIdeal
import proofs.«150900_j13305808683303_1_alg».proof.Proof.Gen.ReferenceIdeal.Run
import proofs.«150900_j13305808683303_1_alg».proof.Proof.Gen.ReferenceIdeal.Read
import proofs.«150900_j13305808683303_1_alg».proof.Proof.Gen.Pre_finite_inputs
import proofs.«150900_j13305808683303_1_alg».proof.Proof.KRun
import proofs.«150900_j13305808683303_1_alg».proof.Proof.KValue
import proofs.«150900_j13305808683303_1_alg».proof.Proof.RefValue
import proofs.«150900_j13305808683303_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result, as the same function of the argument arrays the kernel's result array ends at: the
    second layer of the hidden features and their neighbourhood means, the hidden features the rectified first layer,
    each mean taken the kernel's way (`Cert.Bridge.meanK_eq`). -/
theorem reference_value (m : (ℓ : Loc Cert.KernelIdeal.nD Cert.KernelIdeal.τ Cert.KernelIdeal.sig) → Buf (Elt Ideal) ℓ)
    (c : Dev Cert.KernelIdeal.nD) :
    Cert.ReferenceIdeal.Read.val_main_v58 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.Sage.lin (R := 100000) (O := 64)
          (Cert.KernelIdeal.HostV.meanK (F := Ideal) (Cert.KernelIdeal.ValueK.hiddenK m c)
            (m ((c.tc : Thread Cert.KernelIdeal.nD Cert.KernelIdeal.τ).loc Cert.KernelIdeal.main_arg1)))
          (Cert.KernelIdeal.ValueK.hiddenK m c)
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  rw [Cert.ReferenceIdeal.RefValue.out_eq, Cert.ReferenceIdeal.RefValue.mean2_eq, Cert.ReferenceIdeal.RefValue.hidden_eq]
  unfold Cert.KernelIdeal.ValueK.hiddenK
  simp only [← Cert.Bridge.meanK_eq]

/-- From memories that agree on the arguments both programs end with the same result array, entry by entry. -/
theorem algebraic : Cert.algebraic_KernelIdeal_ReferenceIdeal := by
  intro m ρ m' ρ' _ hagree
  refine ⟨fun c => Cert.KernelIdeal.Gen.W4 m ρ c (Proc.devRef .tc Cert.KernelIdeal.main_v38),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (reference_value m c).trans (Cert.KernelIdeal.ValueK.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
